-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x256 : Shape := ⟨3, ![4, 32768, 256]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S4x32768x256 : S_.BroadcastsInDim S4x32768x256 (![] : Fin 0 → Fin S4x32768x256.rank)
  reducesTo_S4x32768x256_S_d0_1_2 : S4x32768x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x32768x256 .f32) (main_arg1 : FVec F S1024x256 .f32) (main_arg2 : FVec F S1024 .f32) (main_arg3 : FVec F S256x1024 .f32) (main_arg4 : FVec F S256 .f32) (main_arg5 : IVec S1024x256 32) : IVec S_ 1 :=
  let main_v0 : FVec F S4x32768x256 .f32 := Host.absf main_arg0
  let main_cst : FVec F S_ .f32 := constant S_ .f32 0x7F800000#32
  let main_v1 : FVec F S4x32768x256 .f32 := broadcastInDim S4x32768x256 ![] bcast_S_S4x32768x256 main_cst
  let main_v2 : IVec S4x32768x256 1 := cmpf .olt main_v0 main_v1
  let main_c : IVec S_ 1 := constantI S_ 1 1#1
  let main_v3 : IVec S_ 1 := (fun x v => Host.reduce IntOp.andi x v reducesTo_S4x32768x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_v13 main_v16
-- ==== Kernel.lean ====
abbrev S4x32768x256 : Shape := ⟨3, ![4, 32768, 256]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S1x1024 : Shape := ⟨2, ![1, 1024]⟩
abbrev S1x256 : Shape := ⟨2, ![1, 256]⟩
abbrev S131072x256 : Shape := ⟨2, ![131072, 256]⟩
abbrev S2048x256 : Shape := ⟨2, ![2048, 256]⟩
abbrev S2048x1024 : Shape := ⟨2, ![2048, 1024]⟩

abbrev nBuf : Space → Nat
  | .hbm => 18
  | .vmem => 8
  | .smem => 0
  | _ => 0

abbrev bufTy : (tb : Table) → Fin (tcTables nBuf tb) → BufTy
  | .hbm, ⟨0, _⟩ => ⟨S4x32768x256, .f32⟩
  | .hbm, ⟨1, _⟩ => ⟨S1024x256, .f32⟩
  | .hbm, ⟨2, _⟩ => ⟨S1024, .f32⟩
  | .hbm, ⟨3, _⟩ => ⟨S256x1024, .f32⟩
  | .hbm, ⟨4, _⟩ => ⟨S256, .f32⟩
  | .hbm, ⟨5, _⟩ => ⟨S1024x256, .i32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1024x256, .f32⟩
  | .hbm, ⟨11, _⟩ => ⟨S1024x256, .f32⟩
  | .hbm, ⟨12, _⟩ => ⟨S1024x256, .bf16⟩
  | .hbm, ⟨13, _⟩ => ⟨S1x1024, .f32⟩
  | .hbm, ⟨14, _⟩ => ⟨S1x256, .f32⟩
  | .hbm, ⟨15, _⟩ => ⟨S131072x256, .f32⟩
  | .hbm, ⟨16, _⟩ => ⟨S131072x256, .f32⟩
  | .hbm, ⟨17, _⟩ => ⟨S4x32768x256, .f32⟩
  | .local _ .vmem, ⟨0, _⟩ => ⟨S2048x256, .f32⟩
  | .local _ .vmem, ⟨1, _⟩ => ⟨S2048x256, .f32⟩
  | .local _ .vmem, ⟨2, _⟩ => ⟨S256x1024, .bf16⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4x32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1024x256_S256x1024_1_0 : S1024x256.Transposes [1, 0] S256x1024
  bitsLt_bf16_f32 : FTy.bits .bf16 < FTy.bits .f32
  transposes_S256x1024_S1024x256_1_0 : S256x1024.Transposes [1, 0] S1024x256
  shapeCasts_S1024_S1x1024 : S1024.ShapeCasts S1x1024
  shapeCasts_S256_S1x256 : S256.ShapeCasts S1x256
  shapeCasts_S4x32768x256_S131072x256 : S4x32768x256.ShapeCasts S131072x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S131072x256_S4x32768x256 : S131072x256.ShapeCasts S4x32768x256
  dot_S2048x256_S256x1024_S2048x1024_1_0_0_1_n_n_wf : DotDims.WF S2048x256 S256x1024 S2048x1024 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S131072x256.size a
  hwx0_5 : ∀ i : grid0.Coords, EltTy.bits .f32 = 32 ∨ (Rect.block (s := S131072x256) S2048x256.size (cc0_transform_5 i) (hinb0_5 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v9) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x32768x256 : Shape := ⟨3, ![4, 32768, 256]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S4x32768x1024 : Shape := ⟨3, ![4, 32768, 1024]⟩
abbrev S1x1x1024 : Shape := ⟨3, ![1, 1, 1024]⟩
abbrev S_ : Shape := ⟨0, ![]⟩
abbrev S1x1x256 : Shape := ⟨3, ![1, 1, 256]⟩

abbrev nBuf : Space → Nat
  | .hbm => 21
  | .vmem => 0
  | .smem => 0
  | _ => 0

abbrev bufTy : (tb : Table) → Fin (tcTables nBuf tb) → BufTy
  | .hbm, ⟨0, _⟩ => ⟨S4x32768x256, .f32⟩
  | .hbm, ⟨1, _⟩ => ⟨S1024x256, .f32⟩
  | .hbm, ⟨2, _⟩ => ⟨S1024, .f32⟩
  | .hbm, ⟨3, _⟩ => ⟨S256x1024, .f32⟩
  | .hbm, ⟨4, _⟩ => ⟨S256, .f32⟩
  | .hbm, ⟨5, _⟩ => ⟨S1024x256, .i32⟩
  | .hbm, ⟨6, _⟩ => ⟨S1024x256, .f32⟩
  | .hbm, ⟨7, _⟩ => ⟨S1024x256, .f32⟩
  | .hbm, ⟨8, _⟩ => ⟨S4x32768x1024, .f32⟩
  | .hbm, ⟨9, _⟩ => ⟨S1x1x1024, .f32⟩
  | .hbm, ⟨10, _⟩ => ⟨S4x32768x1024, .f32⟩
  | .hbm, ⟨11, _⟩ => ⟨S4x32768x1024, .f32⟩
  | .hbm, ⟨12, _⟩ => ⟨S_, .f32⟩
  | .hbm, ⟨13, _⟩ => ⟨S4x32768x1024, .f32⟩
  | .hbm, ⟨14, _⟩ => ⟨S4x32768x1024, .f32⟩
  | .hbm, ⟨15, _⟩ => ⟨S256x1024, .f32⟩
  | .hbm, ⟨16, _⟩ => ⟨S256x1024, .f32⟩
  | .hbm, ⟨17, _⟩ => ⟨S4x32768x256, .f32⟩
  | .hbm, ⟨18, _⟩ => ⟨S1x1x256, .f32⟩
  | .hbm, ⟨19, _⟩ => ⟨S4x32768x256, .f32⟩
  | .hbm, ⟨20, _⟩ => ⟨S4x32768x256, .f32⟩
  | _, _ => ⟨S4x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x32768x1024_0_1_2 : S1x1x1024.BroadcastsInDim S4x32768x1024 (![0, 1, 2] : Fin 3 → Fin S4x32768x1024.rank)
  bcast_S_S4x32768x1024 : S_.BroadcastsInDim S4x32768x1024 (![] : Fin 0 → Fin S4x32768x1024.rank)
  transposes_S1024x256_S256x1024_1_0 : S1024x256.Transposes [1, 0] S256x1024
  bcast_S256_S1x1x256_2 : S256.BroadcastsInDim S1x1x256 (![2] : Fin 1 → Fin S1x1x256.rank)
  bcast_S1x1x256_S4x32768x256_0_1_2 : S1x1x256.BroadcastsInDim S4x32768x256 (![0, 1, 2] : Fin 3 → Fin S4x32768x256.rank)
  dot_S4x32768x256_S1024x256_S4x32768x1024_2_1_01_0_n_n_wf : DotDims.WF S4x32768x256 S1024x256 S4x32768x1024 [2] [1] [0, 1] [0] [] []
  dot_S4x32768x1024_S256x1024_S4x32768x256_2_1_01_0_n_n_wf : DotDims.WF S4x32768x1024 S256x1024 S4x32768x256 [2] [1] [0, 1] [0] [] []

variable [Facts₀]

def dot_S4x32768x256_S1024x256_S4x32768x1024_2_1_01_0_n_n : DotDims S4x32768x256 S1024x256 S4x32768x1024 where
  lhsContracting := [2]
  rhsContracting := [1]
  lhsNonContracting := [0, 1]
  rhsNonContracting := [0]
  lhsBatch := []
  rhsBatch := []
  wf := dot_S4x32768x256_S1024x256_S4x32768x1024_2_1_01_0_n_n_wf
def dot_S4x32768x1024_S256x1024_S4x32768x256_2_1_01_0_n_n : DotDims S4x32768x1024 S256x1024 S4x32768x256 where
  lhsContracting := [2]
  rhsContracting := [1]
  lhsNonContracting := [0, 1]
  rhsNonContracting := [0]
  lhsBatch := []
  rhsBatch := []
  wf := dot_S4x32768x1024_S256x1024_S4x32768x256_2_1_01_0_n_n_wf

class Facts : Prop extends Facts₀ where

variable [Facts]
-- ==== Proof.MaskedMlp.lean ====
/-
  The function both programs compute, stated once over the extended reals.

  A graph-masked two-layer perceptron. With `m` the 0/1 connectivity mask read as a float, row `(b, s)` of the
  input `x` goes to
      y[b, s, d] = ( ∑ h, max( (∑ k, x[b, s, k] · (w1[h, k] · m[h, k])) + b1[h], 0 ) · (w2[d, h] · m[h, d]) ) + b2[d].
  The first layer's weight is `w1` masked entry by entry; the second layer's is `w2` masked by the TRANSPOSED mask.
  Nothing here rearranges a sum or distributes a product, so no input needs to be finite: both programs are this
  very expression, the factors of every product in this order.
-/
import Idealize.ShloMosaic.PureOps.Ideal
import Idealize.ShloMosaic.Lib.ValueIdx

noncomputable section

open Idealize.ShloMosaic Idealize.ShloMosaic.ValueIdx

namespace Cert.MaskedMlp

/-- One output row of a two-layer perceptron with a rectifier between the layers: from the input row `xrow`
    (256 features), the first layer's weight `wIn k h` and bias `bIn h` (1024 hidden units), the second layer's
    weight `wOut h d` and bias `bOut d`, and the rectifier's floor `z`, output feature `d`. -/
def rowMlp (xrow : Fin 256 → EReal) (wIn : Fin 256 → Fin 1024 → EReal) (bIn : Fin 1024 → EReal)
    (wOut : Fin 1024 → Fin 256 → EReal) (bOut : Fin 256 → EReal) (z : EReal) (d : Fin 256) : EReal :=
  (∑ h : Fin 1024, max ((∑ k : Fin 256, xrow k * wIn k h) + bIn h) z * wOut h d) + bOut d

/-- `rowMlp` depends on its ingredients only through their values: the same row, weights and biases entry by entry,
    read at the same output feature, give the same number. -/
theorem rowMlp_congr {xrow xrow' : Fin 256 → EReal} {wIn wIn' : Fin 256 → Fin 1024 → EReal} {bIn bIn' : Fin 1024 → EReal}
    {wOut wOut' : Fin 1024 → Fin 256 → EReal} {bOut bOut' : Fin 256 → EReal} (z : EReal) {d d' : Fin 256}
    (hx : ∀ k, xrow k = xrow' k) (hw : ∀ k h, wIn k h = wIn' k h) (hb : ∀ h, bIn h = bIn' h)
    (hv : ∀ h e, wOut h e = wOut' h e) (hc : ∀ e, bOut e = bOut' e) (hd : d = d') :
    rowMlp xrow wIn bIn wOut bOut z d = rowMlp xrow' wIn' bIn' wOut' bOut' z d' := by
  subst hd
  obtain rfl : xrow = xrow' := funext hx
  obtain rfl : wIn = wIn' := funext fun k => funext (hw k)
  obtain rfl : bIn = bIn' := funext hb
  obtain rfl : wOut = wOut' := funext fun h => funext (hv h)
  obtain rfl : bOut = bOut' := funext hc
  rfl

/-- The rectifier's floor: the float zero, as an extended real. -/
abbrev floor0 : EReal := FloatOps.ofBits (F := Ideal) .f32 0x00000000#32

/-- The masked perceptron on the whole batch: entry `(b, s, d)` is row `(b, s)` of `x` through `rowMlp` with
    the first weight `w1[h, k] · m[h, k]` and the second `w2[d, h] · m[h, d]`. -/
def maskedMlp (x : FVec Ideal ⟨3, ![4, 32768, 256]⟩ .f32) (w1 : FVec Ideal ⟨2, ![1024, 256]⟩ .f32)
    (b1 : FVec Ideal ⟨1, ![1024]⟩ .f32) (w2 : FVec Ideal ⟨2, ![256, 1024]⟩ .f32) (b2 : FVec Ideal ⟨1, ![256]⟩ .f32)
    (mk : IVec ⟨2, ![1024, 256]⟩ 32) : FVec Ideal ⟨3, ![4, 32768, 256]⟩ .f32 := fun i =>
  rowMlp (fun k => x (ix3 (i 0) (i 1) k))
    (fun k h => w1 (ix2 h k) * FloatOps.sitofp (F := Ideal) .f32 (mk (ix2 h k)))
    (fun h => b1 (ix1 h))
    (fun h d => w2 (ix2 d h) * FloatOps.sitofp (F := Ideal) .f32 (mk (ix2 h d)))
    (fun d => b2 (ix1 d)) floor0 (i 2)

end Cert.MaskedMlp

end
-- ==== Proof.RefAtIndex.lean ====
/-
  The reference program's result, read at an index, is the masked perceptron `Cert.MaskedMlp.maskedMlp`.

  The reference contracts `x` with `w1 ∘ m` over the feature axis, adds the bias along the hidden axis, takes the
  maximum with zero, contracts the result with `w2 ∘ mᵀ` over the hidden axis and adds the second bias. Read at an
  entry `(b, s, d)` each contraction is a plain sum at the ideal values, each broadcast reads its operand at the
  trailing coordinate, and the transposed mask at `(d, h)` is the mask at `(h, d)`; what is left is the
  specification's expression, term for term.
-/
import proofs.«102384_j11295763988598_1_alg».proof.Proof.Gen.ReferenceIdeal.Run
import proofs.«102384_j11295763988598_1_alg».proof.Proof.Gen.ReferenceIdeal.Read
import proofs.«102384_j11295763988598_1_alg».proof.Proof.MaskedMlp

noncomputable section

open Idealize.ShloMosaic Idealize.ShloMosaic.TcCoe Idealize.ShloMosaic.ValueIdx

namespace Cert.ReferenceIdeal.AtIndex

open Cert.ReferenceIdeal Cert.ReferenceIdeal.Read Cert.MaskedMlp

/-! ## Where each operand is read -/

/-- The first contraction's left factor for hidden unit `h`, feature `k`: `x` at `(b, s, k)`. -/
theorem x_idx (i : S4x32768x256.Idx) (h : Fin 1024) (k : Fin 256) :
    lidx_main_v2 (lidx_main_v9 i h) k = ix3 (i 0) (i 1) k :=
  funext fun a => Fin.ext (by match a with | ⟨0, _⟩ => rfl | ⟨1, _⟩ => rfl | ⟨2, _⟩ => rfl)

/-- Its right factor: the masked first weight at `(h, k)`. -/
theorem w1_idx (i : S4x32768x256.Idx) (h : Fin 1024) (k : Fin 256) :
    ridx_main_v2 (lidx_main_v9 i h) k = ix2 h k :=
  funext fun a => Fin.ext (by match a with | ⟨0, _⟩ => rfl | ⟨1, _⟩ => rfl)

/-- The first bias, broadcast along batch and sequence, is read at the hidden unit. -/
theorem b1_idx (i : S4x32768x256.Idx) (h : Fin 1024) :
    idx_main_v3 (idx_main_v4 (lidx_main_v9 i h)) = ix1 h :=
  funext fun a => Fin.ext (by match a with | ⟨0, _⟩ => rfl)

/-- The second contraction's right factor for hidden unit `h`: the masked second weight at `(d, h)`. -/
theorem w2_idx (i : S4x32768x256.Idx) (h : Fin 1024) : ridx_main_v9 i h = ix2 (i 2) h :=
  funext fun a => Fin.ext (by match a with | ⟨0, _⟩ => rfl | ⟨1, _⟩ => rfl)

/-- The transposed mask at `(d, h)` is the mask at `(h, d)`. -/
theorem maskT_idx (i : S4x32768x256.Idx) (h : Fin 1024) : idx_main_v7 (ix2 (i 2) h) = ix2 h (i 2) :=
  funext fun a => Fin.ext (by match a with | ⟨0, _⟩ => rfl | ⟨1, _⟩ => rfl)

/-- The second bias, broadcast along batch and sequence, is read at the output feature. -/
theorem b2_idx (i : S4x32768x256.Idx) : idx_main_v10 (idx_main_v11 i) = ix1 (i 2) :=
  funext fun a => Fin.ext (by match a with | ⟨0, _⟩ => rfl)

/-! ## The reference is the specification -/

/-- The reference's last stage is the masked perceptron of the arguments. -/
theorem reference_eq (x0 : (⟨S4x32768x256, .f32⟩ : BufTy).Contents (Elt Ideal)) (x1 : (⟨S1024x256, .f32⟩ : BufTy).Contents (Elt Ideal))
    (x2 : (⟨S1024, .f32⟩ : BufTy).Contents (Elt Ideal)) (x3 : (⟨S256x1024, .f32⟩ : BufTy).Contents (Elt Ideal))
    (x4 : (⟨S256, .f32⟩ : BufTy).Contents (Elt Ideal)) (x5 : (⟨S1024x256, .i32⟩ : BufTy).Contents (Elt Ideal)) :
    val_main_v12 (F := Ideal) x0 x1 x2 x3 x4 x5 = maskedMlp x0 x1 x2 x3 x4 x5 := by
  funext i
  rw [val_main_v12_apply, val_main_v9_apply, val_main_v11_apply, val_main_v10_apply, b2_idx]
  unfold maskedMlp rowMlp
  simp only [val_main_v6_apply, val_main_v5_apply, val_main_v2_apply, val_main_v4_apply, val_main_v3_apply,
    val_main_call0_v0_apply, val_main_call0_cst_apply, val_main_v8_apply, val_main_v7_apply, val_main_v1_apply,
    val_main_v0_apply]
  simp only [x_idx, w1_idx, b1_idx, w2_idx, maskT_idx]
  rfl

end Cert.ReferenceIdeal.AtIndex

end
-- ==== Proof.Operands.lean ====
/-
  The five arrays the kernel's region is launched on, as the host lines before it leave them, read at an entry.

  Before the region the program flattens `x` from `[4, 32768, 256]` to `[131072, 256]` (row `32768·b + s` is row
  `(b, s)`), masks the first weight entry by entry and transposes it to feature-major, masks the TRANSPOSED second
  weight by the mask (entry `(h, d)` is `w2[d, h] · m[h, d]`), and turns each bias vector into a one-row matrix. The
  narrowing casts of the two weights are the identity at the ideal values.
-/
import proofs.«102384_j11295763988598_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem Idealize.ShloMosaic.StableHlo

namespace Cert.KernelIdeal.Operands

open Cert.KernelIdeal Cert.KernelIdeal.Gen

variable (m : (ℓ : Loc nD τ sig) → Buf (Elt Ideal) ℓ)

/-! ## Names, at their literal shapes -/

/-- The six arguments as launched. -/
abbrev argX (c : Dev nD) : FVec Ideal S4x32768x256 .f32 := m ((c : Thread nD τ).loc main_arg0)
abbrev argW1 (c : Dev nD) : FVec Ideal S1024x256 .f32 := m ((c : Thread nD τ).loc main_arg1)
abbrev argB1 (c : Dev nD) : FVec Ideal S1024 .f32 := m ((c : Thread nD τ).loc main_arg2)
abbrev argW2 (c : Dev nD) : FVec Ideal S256x1024 .f32 := m ((c : Thread nD τ).loc main_arg3)
abbrev argB2 (c : Dev nD) : FVec Ideal S256 .f32 := m ((c : Thread nD τ).loc main_arg4)
abbrev argMask (c : Dev nD) : IVec S1024x256 32 := m ((c : Thread nD τ).loc main_arg5)

/-- The five staged arrays as the region finds them: the flattened rows, the feature-major first weight, the first
    bias row, the hidden-major second weight, the second bias row. -/
abbrev rows (c : Dev nD) : FVec Ideal S131072x256 .f32 := V m c main_v9
abbrev weightIn (c : Dev nD) : FVec Ideal S256x1024 .bf16 := V m c main_v3
abbrev biasIn (c : Dev nD) : FVec Ideal S1x1024 .f32 := V m c main_v7
abbrev weightOut (c : Dev nD) : FVec Ideal S1024x256 .bf16 := V m c main_v6
abbrev biasOut (c : Dev nD) : FVec Ideal S1x256 .f32 := V m c main_v8

/-! ## Each staged array as a term of the arguments -/

/-- The rows: `x` flattened. -/
theorem rows_eq (c : Dev nD) :
    rows m c = shapeCast S131072x256 (argX m c) shapeCasts_S4x32768x256_S131072x256 := by
  show StableHlo.after hostOps0 (fun b => m (c, b)) (Proc.devRef .tc main_v9) = _
  after_results
  rfl

/-- The first weight: masked, then transposed to feature-major. -/
theorem weightIn_eq (c : Dev nD) :
    weightIn m c = truncf .bf16 (transpose S256x1024 [1, 0] (mulf (argW1 m c) (sitofp .f32 (argMask m c))) transposes_S1024x256_S256x1024_1_0) bitsLt_bf16_f32 := by
  show StableHlo.after hostOps0 (fun b => m (c, b)) (Proc.devRef .tc main_v3) = _
  after_results

/-- The first bias as a one-row matrix. -/
theorem biasIn_eq (c : Dev nD) :
    biasIn m c = shapeCast S1x1024 (argB1 m c) shapeCasts_S1024_S1x1024 := by
  show StableHlo.after hostOps0 (fun b => m (c, b)) (Proc.devRef .tc main_v7) = _
  after_results
  rfl

/-- The second weight: transposed to hidden-major, then masked. -/
theorem weightOut_eq (c : Dev nD) :
    weightOut m c = truncf .bf16 (mulf (transpose S1024x256 [1, 0] (argW2 m c) transposes_S256x1024_S1024x256_1_0) (sitofp .f32 (argMask m c))) bitsLt_bf16_f32 := by
  show StableHlo.after hostOps0 (fun b => m (c, b)) (Proc.devRef .tc main_v6) = _
  after_results

/-- The second bias as a one-row matrix. -/
theorem biasOut_eq (c : Dev nD) :
    biasOut m c = shapeCast S1x256 (argB2 m c) shapeCasts_S256_S1x256 := by
  show StableHlo.after hostOps0 (fun b => m (c, b)) (Proc.devRef .tc main_v8) = _
  after_results
  rfl

/-! ## Read at an entry -/

/-- Row `r = 32768·b + s` of the flattened `x`, feature `k`: `x[b, s, k]`. -/
theorem rows_apply (c : Dev nD) (b : Fin 4) (s : Fin 32768) (k : Fin 256) (r : Fin 131072) (hr : r.val = b.val * 32768 + s.val) :
    rows m c (ix2 r k) = argX m c (ix3 b s k) := by
  rw [rows_eq]
  exact shapeCast_apply _ _ (ix2 r k) (ix3 b s k) (by
    rw [Shape.rowMajor_val_three, Shape.rowMajor_val_two]
    show (b.val * 32768 + s.val) * 256 + k.val = r.val * 256 + k.val
    rw [hr])

/-- The feature-major first weight at `(k, h)`: `w1[h, k] · m[h, k]`. -/
theorem weightIn_apply (c : Dev nD) (k : Fin 256) (h : Fin 1024) :
    weightIn m c (ix2 k h) = argW1 m c (ix2 h k) * FloatOps.sitofp (F := Ideal) .f32 (argMask m c (ix2 h k)) := by
  rw [weightIn_eq, truncf_apply]
  exact transpose_apply [1, 0] _ transposes_S1024x256_S256x1024_1_0 (ix2 k h) (ix2 h k) (fun b => match b with
    | ⟨0, _⟩ => rfl
    | ⟨1, _⟩ => rfl)

/-- The one-row first bias at `(0, h)`: `b1[h]`. -/
theorem biasIn_apply (c : Dev nD) (h : Fin 1024) :
    biasIn m c (ix2 (0 : Fin 1) h) = argB1 m c (ix1 h) := by
  rw [biasIn_eq]
  exact shapeCast_apply _ _ (ix2 (0 : Fin 1) h) (ix1 h) (by
    rw [Shape.rowMajor_val_one, Shape.rowMajor_val_two]
    show h.val = 0 * 1024 + h.val
    omega)

/-- The hidden-major second weight at `(h, d)`: `w2[d, h] · m[h, d]`. -/
theorem weightOut_apply (c : Dev nD) (h : Fin 1024) (d : Fin 256) :
    weightOut m c (ix2 h d) = argW2 m c (ix2 d h) * FloatOps.sitofp (F := Ideal) .f32 (argMask m c (ix2 h d)) := by
  rw [weightOut_eq, truncf_apply, mulf_apply]
  refine congrArg (· * _) ?_
  exact transpose_apply [1, 0] _ transposes_S256x1024_S1024x256_1_0 (ix2 h d) (ix2 d h) (fun b => match b with
    | ⟨0, _⟩ => rfl
    | ⟨1, _⟩ => rfl)

/-- The one-row second bias at `(0, d)`: `b2[d]`. -/
theorem biasOut_apply (c : Dev nD) (d : Fin 256) :
    biasOut m c (ix2 (0 : Fin 1) d) = argB2 m c (ix1 d) := by
  rw [biasOut_eq]
  exact shapeCast_apply _ _ (ix2 (0 : Fin 1) d) (ix1 d) (by
    rw [Shape.rowMajor_val_one, Shape.rowMajor_val_two]
    show d.val = 0 * 256 + d.val
    omega)

end Cert.KernelIdeal.Operands

end
-- ==== Proof.BodyAtIndex.lean ====
/-
  What one grid point of the kernel computes, read at an entry of its output block.

  The body takes a block of 2048 rows of `x`, the masked first weight laid out feature-major `[256, 1024]`, the first
  bias as a row `[1, 1024]`, the masked second weight hidden-major `[1024, 256]` and the second bias as a row
  `[1, 256]`. It multiplies the rows by the first weight into a zero accumulator, adds the bias row to every row,
  takes the maximum with zero, multiplies by the second weight into a zero accumulator and adds the second bias row.
  At the ideal values the narrowing casts are the identity and a matrix product into zeros is the plain sum over the
  contracted axis, so entry `(p, q)` of the block is `Cert.MaskedMlp.rowMlp` of row `p` of the `x` block.
-/
import proofs.«102384_j11295763988598_1_alg».proof.Proof.Gen.KernelIdeal.Skeleton
import proofs.«102384_j11295763988598_1_alg».proof.Proof.MaskedMlp
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.AtIndex

open Cert.KernelIdeal Cert.KernelIdeal.Gen Cert.MaskedMlp

/-! ## The first product: rows of `x` against the feature-major weight -/

theorem lhs_in_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs_in_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs_in_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs_in_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- Entry `(p, h)` of the first product into zeros: the sum over the 256 features of row `p` against column `h`. -/
theorem productIn_apply (l : FVec Ideal S2048x256 .bf16) (r : FVec Ideal S256x1024 .bf16) (p : Fin 2048) (h : Fin 1024) :
    matmul dot_S2048x256_S256x1024_S2048x1024_1_0_0_1_n_n none l r (constant (F := Ideal) S2048x1024 .f32 0x00000000#32) (ix2 p h)
      = ∑ k : Fin 256, l (ix2 p k) * r (ix2 k h) := by
  show FloatOps.matmul dot_S2048x256_S256x1024_S2048x1024_1_0_0_1_n_n none l r (constant (F := Ideal) S2048x1024 .f32 0x00000000#32) (ix2 p h) = _
  rw [Ideal.matmul_constant_zero_apply, ← Equiv.sum_comp (ValueIdx.contrEquiv1 dot_S2048x256_S256x1024_S2048x1024_1_0_0_1_n_n 256 rfl rfl).symm]
  refine Finset.sum_congr rfl fun k _ => ?_
  have hk := ValueIdx.contrEquiv1_symm_val dot_S2048x256_S256x1024_S2048x1024_1_0_0_1_n_n 256 rfl rfl k
  have el : dot_S2048x256_S256x1024_S2048x1024_1_0_0_1_n_n.lhsIdx (ix2 p h) ((ValueIdx.contrEquiv1 dot_S2048x256_S256x1024_S2048x1024_1_0_0_1_n_n 256 rfl rfl).symm k) = ix2 p k := funext fun a => Fin.ext (by
    match a with
    | ⟨0, _⟩ => exact lhs_in_0 _ _
    | ⟨1, _⟩ => exact (lhs_in_1 _ _).trans hk)
  have er : dot_S2048x256_S256x1024_S2048x1024_1_0_0_1_n_n.rhsIdx (ix2 p h) ((ValueIdx.contrEquiv1 dot_S2048x256_S256x1024_S2048x1024_1_0_0_1_n_n 256 rfl rfl).symm k) = ix2 k h := funext fun a => Fin.ext (by
    match a with
    | ⟨0, _⟩ => exact (rhs_in_0 _ _).trans hk
    | ⟨1, _⟩ => exact rhs_in_1 _ _)
  rw [el, er]

/-! ## The second product: hidden activations against the hidden-major weight -/

theorem lhs_out_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs_out_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs_out_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs_out_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- Entry `(p, q)` of the second product into zeros: the sum over the 1024 hidden units of row `p` against column `q`. -/
theorem productOut_apply (l : FVec Ideal S2048x1024 .bf16) (r : FVec Ideal S1024x256 .bf16) (p : Fin 2048) (q : Fin 256) :
    matmul dot_S2048x1024_S1024x256_S2048x256_1_0_0_1_n_n none l r (constant (F := Ideal) S2048x256 .f32 0x00000000#32) (ix2 p q)
      = ∑ h : Fin 1024, l (ix2 p h) * r (ix2 h q) := by
  show FloatOps.matmul dot_S2048x1024_S1024x256_S2048x256_1_0_0_1_n_n none l r (constant (F := Ideal) S2048x256 .f32 0x00000000#32) (ix2 p q) = _
  rw [Ideal.matmul_constant_zero_apply, ← Equiv.sum_comp (ValueIdx.contrEquiv1 dot_S2048x1024_S1024x256_S2048x256_1_0_0_1_n_n 1024 rfl rfl).symm]
  refine Finset.sum_congr rfl fun k _ => ?_
  have hk := ValueIdx.contrEquiv1_symm_val dot_S2048x1024_S1024x256_S2048x256_1_0_0_1_n_n 1024 rfl rfl k
  have el : dot_S2048x1024_S1024x256_S2048x256_1_0_0_1_n_n.lhsIdx (ix2 p q) ((ValueIdx.contrEquiv1 dot_S2048x1024_S1024x256_S2048x256_1_0_0_1_n_n 1024 rfl rfl).symm k) = ix2 p k := funext fun a => Fin.ext (by
    match a with
    | ⟨0, _⟩ => exact lhs_out_0 _ _
    | ⟨1, _⟩ => exact (lhs_out_1 _ _).trans hk)
  have er : dot_S2048x1024_S1024x256_S2048x256_1_0_0_1_n_n.rhsIdx (ix2 p q) ((ValueIdx.contrEquiv1 dot_S2048x1024_S1024x256_S2048x256_1_0_0_1_n_n 1024 rfl rfl).symm k) = ix2 k q := funext fun a => Fin.ext (by
    match a with
    | ⟨0, _⟩ => exact (rhs_out_0 _ _).trans hk
    | ⟨1, _⟩ => exact rhs_out_1 _ _)
  rw [el, er]

/-! ## The bias rows, added to every row of the block -/

/-- The first bias row broadcast over the 2048 rows, at `(p, h)`: the row's entry `h`. -/
theorem biasIn_apply (v : FVec Ideal S1x1024 .f32) (p : Fin 2048) (h : Fin 1024) :
    broadcastTo S2048x1024 v broadcasts_S1x1024_S2048x1024 (ix2 p h) = v (ix2 (0 : Fin 1) h) :=
  broadcastTo_apply v broadcasts_S1x1024_S2048x1024 (ix2 p h) (ix2 (0 : Fin 1) h) (fun a => match a with
    | ⟨0, _⟩ => by show (0 : Nat) = if (1 : Nat) = 1 then 0 else _; rw [if_pos rfl]
    | ⟨1, _⟩ => by show h.val = if (1024 : Nat) = 1 then 0 else _; rw [if_neg (by decide)]; rfl)

/-- The second bias row broadcast over the 2048 rows, at `(p, q)`: the row's entry `q`. -/
theorem biasOut_apply (v : FVec Ideal S1x256 .f32) (p : Fin 2048) (q : Fin 256) :
    broadcastTo S2048x256 v broadcasts_S1x256_S2048x256 (ix2 p q) = v (ix2 (0 : Fin 1) q) :=
  broadcastTo_apply v broadcasts_S1x256_S2048x256 (ix2 p q) (ix2 (0 : Fin 1) q) (fun a => match a with
    | ⟨0, _⟩ => by show (0 : Nat) = if (1 : Nat) = 1 then 0 else _; rw [if_pos rfl]
    | ⟨1, _⟩ => by show q.val = if (256 : Nat) = 1 then 0 else _; rw [if_neg (by decide)]; rfl)

/-! ## The body's stored value at an entry -/

/-- Entry `(p, q)` of what the body stores: the perceptron of row `p` of the `x` block, with the weights and bias
    rows as the body loaded them. -/
theorem body_apply (x0 : Vec Ideal S2048x256 .f32) (x1 : Vec Ideal S256x1024 .bf16) (x2 : Vec Ideal S1x1024 .f32)
    (x3 : Vec Ideal S1024x256 .bf16) (x4 : Vec Ideal S1x256 .f32) (p : Fin 2048) (q : Fin 256) :
    k0_pay1 (F := Ideal) x0 x1 x2 x3 x4 (ix2 p q)
      = rowMlp (fun k => x0 (ix2 p k)) (fun k h => x1 (ix2 k h)) (fun h => x2 (ix2 (0 : Fin 1) h))
          (fun h d => x3 (ix2 h d)) (fun d => x4 (ix2 (0 : Fin 1) d)) floor0 q := by
  unfold k0_pay1 rowMlp
  simp only [shapeCast_self]
  rw [addf_apply, productOut_apply, biasOut_apply]
  refine congrArg (· + _) (Finset.sum_congr rfl fun h _ => ?_)
  rw [truncf_apply, maximumf_apply, addf_apply, productIn_apply, biasIn_apply, broadcast_apply]
  rfl

end Cert.KernelIdeal.AtIndex

end
-- ==== Proof.Blocks.lean ====
/-
  From the kernel's blocks to its result array, and through the host line after the region to the program's result.

  The grid has 64 points. Point `t` is given rows `2048·t … 2048·t + 2047` of the flattened `x` and, whole, the two
  weight matrices and the two bias rows; it writes rows `2048·t … 2048·t + 2047` of the flattened result. What it
  writes at `(p, q)` is the perceptron of row `2048·t + p` (`Cert.KernelIdeal.AtIndex.body_apply`), so every written
  block is a block of ONE array, `rowsOut`: row `r` of the flattened `x` through the perceptron. The 64 blocks tile the
  131072 rows (row `r` lies in block `r / 2048`), so after the region the flattened result array is `rowsOut`. The one
  host line after the region unflattens it: entry `(b, s, d)` is `rowsOut` at row `32768·b + s`, and with each staged
  array read back in terms of the arguments (`Cert.KernelIdeal.Operands`) that is the specification
  `Cert.MaskedMlp.maskedMlp` of the arguments.
-/
import proofs.«102384_j11295763988598_1_alg».proof.Proof.Gen.KernelIdeal.Frame
import proofs.«102384_j11295763988598_1_alg».proof.Proof.MaskedMlp
import proofs.«102384_j11295763988598_1_alg».proof.Proof.BodyAtIndex
import proofs.«102384_j11295763988598_1_alg».proof.Proof.Operands
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Blocks

open Cert.KernelIdeal Cert.KernelIdeal.Gen Cert.MaskedMlp Cert.KernelIdeal.Operands

variable (m : (ℓ : Loc nD τ sig) → Buf (Elt Ideal) ℓ) (ρ : Dev nD → PrngReg)

theorem hz : (![0, 0] : Fin 2 → Nat) = fun _ => 0 := funext fun a => by fin_cases a <;> rfl

/-! ## The flattened result as one array -/

/-- Row `r` of the flattened `x`, as the region finds it, through the perceptron with the staged weights and bias
    rows: the array every written block is a block of. -/
def rowsOut (c : Dev nD) : S131072x256.Idx → EReal := fun j =>
  rowMlp (fun k => rows m c (ix2 (⟨(j 0).val, idx2_lt0 j⟩ : Fin 131072) k))
    (fun k h => weightIn m c (ix2 k h))
    (fun h => biasIn m c (ix2 (0 : Fin 1) h))
    (fun h d => weightOut m c (ix2 h d))
    (fun d => biasOut m c (ix2 (0 : Fin 1) d))
    floor0 (⟨(j 1).val, idx2_lt1 j⟩ : Fin 256)

/-! ## Which block each window holds at a point -/

/-- The printed index maps over the grid: the `x` window and the result window move with the point along the rows;
    the weights and the bias rows stay at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the `x` block at point `t` is row `2048·t + p` of the flattened `x`. -/
theorem rowsBlock_apply (c : Dev nD) (t : Fin cfg0.N) (p : Fin 2048) (k : Fin 256) (r : Fin 131072) (hr : r.val = t.val * 2048 + p.val) :
    (iblk m c 0 t : Vec Ideal S2048x256 .f32) (ix2 p k) = rows m c (ix2 r k) := by
  have e : ((cfg0.win 0).blk t).view.emb (ix2 p k) = ix2 r k := by
    obtain ⟨e0, e1, -⟩ := idx_facts t
    funext a; apply Fin.ext
    match a with
    | ⟨0, _⟩ => show win0_0.index t (0 : Fin 2) * 2048 + 1 * p.val = r.val; omega
    | ⟨1, _⟩ => show win0_0.index t (1 : Fin 2) * 256 + 1 * k.val = k.val; omega
  show V m c main_v9 (((cfg0.win 0).blk t).view.emb (ix2 p k)) = _
  rw [e]

/-- The first weight's block at any point is the whole staged matrix. -/
theorem weightInBlock_apply (c : Dev nD) (t : Fin cfg0.N) (k : Fin 256) (h : Fin 1024) :
    (iblk m c 1 t : Vec Ideal S256x1024 .bf16) (ix2 k h) = weightIn m c (ix2 k h) := by
  have e : ((cfg0.win 1).blk t).view.emb (ix2 k h) = ix2 k h := by
    obtain ⟨-, -, e0, e1, -⟩ := idx_facts t
    funext a; apply Fin.ext
    match a with
    | ⟨0, _⟩ => show win0_1.index t (0 : Fin 2) * 256 + 1 * k.val = k.val; omega
    | ⟨1, _⟩ => show win0_1.index t (1 : Fin 2) * 1024 + 1 * h.val = h.val; omega
  show V m c main_v3 (((cfg0.win 1).blk t).view.emb (ix2 k h)) = _
  rw [e]

/-- The first bias row's block at any point is the whole staged row. -/
theorem biasInBlock_apply (c : Dev nD) (t : Fin cfg0.N) (h : Fin 1024) :
    (iblk m c 2 t : Vec Ideal S1x1024 .f32) (ix2 (0 : Fin 1) h) = biasIn m c (ix2 (0 : Fin 1) h) := by
  have e : ((cfg0.win 2).blk t).view.emb (ix2 (0 : Fin 1) h) = ix2 (0 : Fin 1) h := by
    obtain ⟨-, -, -, -, e0, e1, -⟩ := idx_facts t
    funext a; apply Fin.ext
    match a with
    | ⟨0, _⟩ => show win0_2.index t (0 : Fin 2) * 1 + 1 * 0 = 0; omega
    | ⟨1, _⟩ => show win0_2.index t (1 : Fin 2) * 1024 + 1 * h.val = h.val; omega
  show V m c main_v7 (((cfg0.win 2).blk t).view.emb (ix2 (0 : Fin 1) h)) = _
  rw [e]

/-- The second weight's block at any point is the whole staged matrix. -/
theorem weightOutBlock_apply (c : Dev nD) (t : Fin cfg0.N) (h : Fin 1024) (d : Fin 256) :
    (iblk m c 3 t : Vec Ideal S1024x256 .bf16) (ix2 h d) = weightOut m c (ix2 h d) := by
  have e : ((cfg0.win 3).blk t).view.emb (ix2 h d) = ix2 h d := by
    obtain ⟨-, -, -, -, -, -, e0, e1, -⟩ := idx_facts t
    funext a; apply Fin.ext
    match a with
    | ⟨0, _⟩ => show win0_3.index t (0 : Fin 2) * 1024 + 1 * h.val = h.val; omega
    | ⟨1, _⟩ => show win0_3.index t (1 : Fin 2) * 256 + 1 * d.val = d.val; omega
  show V m c main_v6 (((cfg0.win 3).blk t).view.emb (ix2 h d)) = _
  rw [e]

/-- The second bias row's block at any point is the whole staged row. -/
theorem biasOutBlock_apply (c : Dev nD) (t : Fin cfg0.N) (d : Fin 256) :
    (iblk m c 4 t : Vec Ideal S1x256 .f32) (ix2 (0 : Fin 1) d) = biasOut m c (ix2 (0 : Fin 1) d) := by
  have e : ((cfg0.win 4).blk t).view.emb (ix2 (0 : Fin 1) d) = ix2 (0 : Fin 1) d := by
    obtain ⟨-, -, -, -, -, -, -, -, e0, e1, -⟩ := idx_facts t
    funext a; apply Fin.ext
    match a with
    | ⟨0, _⟩ => show win0_4.index t (0 : Fin 2) * 1 + 1 * 0 = 0; omega
    | ⟨1, _⟩ => show win0_4.index t (1 : Fin 2) * 256 + 1 * d.val = d.val; omega
  show V m c main_v8 (((cfg0.win 4).blk t).view.emb (ix2 (0 : Fin 1) d)) = _
  rw [e]

/-! ## What a point writes back is its block of `rowsOut` -/

/-- Where entry `(p, q)` of the result block at point `t` sits in the flattened result: row `2048·t + p`, column `q`. -/
theorem outBlock_emb (t : Fin cfg0.N) (p : Fin 2048) (q : Fin 256) :
    ((((cfg0.win 5).blk t).view.emb (ix2 p q)) 0).val = t.val * 2048 + p.val
    ∧ ((((cfg0.win 5).blk t).view.emb (ix2 p q)) 1).val = q.val := by
  obtain ⟨-, -, -, -, -, -, -, -, -, -, e0, e1⟩ := idx_facts t
  constructor
  · show win0_5.index t (0 : Fin 2) * 2048 + 1 * p.val = _; omega
  · show win0_5.index t (1 : Fin 2) * 256 + 1 * q.val = _; omega

/-- What point `t` writes back is block `t` of `rowsOut`: entry `(p, q)` of the written block is the perceptron of row
    `p` of the point's `x` block, which is row `2048·t + p` of the flattened `x`, with the weights and bias rows whole. -/
theorem flushed_eq (c : Dev nD) (t : Fin cfg0.N) :
    (dats m 0 c).flushed 5 t = ((cfg0.win 5).blk t).view.read (Elt Ideal) (rowsOut m c) := by
  show (cfg0.win 5).cut (grid0.coords t) ((dats m 0 c).after 5 t) = _
  rw [after0_5]
  unfold out0_5
  rw [View.canon_unit_zero hz]
  simp only [View.ld_unit_zero (S := S2048x256) hz, View.ld_unit_zero (S := S256x1024) hz, View.ld_unit_zero (S := S1x1024) hz,
    View.ld_unit_zero (S := S1024x256) hz, View.ld_unit_zero (S := S1x256) hz]
  funext y
  obtain ⟨p, q, rfl⟩ : ∃ (p : Fin 2048) (q : Fin 256), y = ix2 p q := ⟨y 0, y 1, eq_ix2 y⟩
  show k0_pay1 (F := Ideal) (iblk m c 0 t) (iblk m c 1 t) (iblk m c 2 t) (iblk m c 3 t) (iblk m c 4 t) (ix2 p q)
    = rowsOut m c (((cfg0.win 5).blk t).view.emb (ix2 p q))
  refine (AtIndex.body_apply (iblk m c 0 t) (iblk m c 1 t) (iblk m c 2 t) (iblk m c 3 t) (iblk m c 4 t) p q).trans ?_
  obtain ⟨h0, h1⟩ := outBlock_emb t p q
  unfold rowsOut
  exact rowMlp_congr floor0 (fun k => rowsBlock_apply m c t p k _ h0) (fun k h => weightInBlock_apply m c t k h)
    (fun h => biasInBlock_apply m c t h) (fun h d => weightOutBlock_apply m c t h d) (fun d => biasOutBlock_apply m c t d)
    (Fin.ext h1.symm)

/-! ## The blocks tile the rows -/

/-- An index of the flattened result is in point `t`'s block iff each coordinate is in the block's range. -/
theorem mem_blk (t : Fin cfg0.N) (i : S131072x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v10).slice (win0_5.rect t)).set ↔ _
  rw [View.set_slice_whole, Rect.mem_set_unit]
  exact Iff.rfl

/-- Row `r` lies in the block of point `r / 2048`. -/
theorem covered (i : S131072x256.Idx) :
    ∃ t : Fin cfg0.N, (cfg0.win 5).flush t = true ∧ i ∈ ((cfg0.win 5).blk t).view.set := by
  have hi0 : (i 0).val < 131072 := (i 0).isLt
  have hi1 : (i 1).val < 256 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 256 ≤ (i 1).val ∧ (i 1).val < win0_5.index t (1 : Fin 2) * 256 + 256; omega

/-- After the region the flattened result array is `rowsOut`. -/
theorem final (c : Dev nD) : (dats m 0 c).arrAt 5 cfg0.N = rowsOut m c :=
  (dats m 0 c).arrAt_eq_of_cover 5 (rowsOut m c) (fun t _ => flushed_eq m c t) covered

/-! ## The host line after the region, and the run -/

/-- The program's result: the flattened result unflattened is the specification of the arguments. -/
theorem result_eq (c : Dev nD) :
    Pipeline.afterTail₀ cfgs (dats m) 0 (V0 m) [hostOps1] c main_v11
      = maskedMlp (argX m c) (argW1 m c) (argB1 m c) (argW2 m c) (argB2 m c) (argMask m c) := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v10) = rowsOut m c :=
    (Pipeline.withArrays_arr spec0 launch0.win.arr_inj c _ _ 5).trans (final m c)
  rw [hw]
  funext i
  obtain ⟨b, s, d, rfl⟩ : ∃ (b : Fin 4) (s : Fin 32768) (d : Fin 256), i = ix3 b s d := ⟨i 0, i 1, i 2, eq_ix3 i⟩
  refine (shapeCast_apply (rowsOut m c) shapeCasts_S131072x256_S4x32768x256 (ix3 b s d) (ix2 (⟨b.val * 32768 + s.val, by omega⟩ : Fin 131072) d) (by
    rw [Shape.rowMajor_val_three, Shape.rowMajor_val_two]
    rfl)).trans ?_
  unfold rowsOut maskedMlp
  exact rowMlp_congr floor0 (fun k => Operands.rows_apply m c b s k _ rfl) (fun k h => Operands.weightIn_apply m c k h)
    (fun h => Operands.biasIn_apply m c h) (fun h e => Operands.weightOut_apply m c h e) (fun e => Operands.biasOut_apply m c e) rfl

/-- Every weakly fair execution of the idealized kernel program terminates with the result at the specification of
    the arguments and the arguments unchanged. -/
theorem run : θ_run defs (onTc (τ := τ) (main (F := Ideal))) ⟨m, fun _ => 0, ρ⟩ (fun r => ∀ c : Dev nD,
      r.2.mem ((c.tc : Thread nD τ).loc main_v11)
        = maskedMlp (argX m c) (argW1 m c) (argB1 m c) (argW2 m c) (argB2 m c) (argMask m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Blocks

end
-- ==== Proof.lean ====
/-
  A graph-masked two-layer perceptron, as one fused kernel over 64 row blocks, against its two-einsum reference.

  Both programs compute, for the 0/1 connectivity mask `m` read as a float,
      y[b, s, d] = ( ∑ h, max( (∑ k, x[b, s, k] · (w1[h, k] · m[h, k])) + b1[h], 0 ) · (w2[d, h] · m[h, d]) ) + b2[d]
  (`Cert.MaskedMlp.maskedMlp`). The reference contracts `x` with `w1 ∘ m`, adds `b1`, rectifies, contracts with
  `w2 ∘ mᵀ` and adds `b2` (`Cert.ReferenceIdeal.AtIndex.reference_eq`). The kernel program masks and lays out the weights
  on the host, flattens `x` to 131072 rows, runs the two products with their biases and the rectifier on 2048 rows
  per grid point, and unflattens the result (`Cert.KernelIdeal.Blocks.run`). Over the extended reals a narrowing
  cast is the identity and a matrix product into zeros is the plain sum, and the two programs multiply the same
  factors in the same order under the same sums, so no sum is rearranged and no input needs to be finite: the
  precondition is never opened.

  The three frames: the two kernel programs' are their generated frame certificates; the reference has no kernel,
  and its frame is its run with the result dropped. The idealization rewrote nothing, so `preserves` is `True`.
-/
import proofs.«102384_j11295763988598_1_alg».proof.Defs
import proofs.«102384_j11295763988598_1_alg».proof.Proof.Gen.Kernel
import proofs.«102384_j11295763988598_1_alg».proof.Proof.Gen.Kernel.Frame
import proofs.«102384_j11295763988598_1_alg».proof.Proof.Gen.KernelIdeal
import proofs.«102384_j11295763988598_1_alg».proof.Proof.Gen.KernelIdeal.Frame
import proofs.«102384_j11295763988598_1_alg».proof.Proof.Gen.ReferenceIdeal
import proofs.«102384_j11295763988598_1_alg».proof.Proof.Gen.ReferenceIdeal.Run
import proofs.«102384_j11295763988598_1_alg».proof.Proof.Gen.ReferenceIdeal.Read
import proofs.«102384_j11295763988598_1_alg».proof.Proof.Gen.Pre_finite_inputs
import proofs.«102384_j11295763988598_1_alg».proof.Proof.MaskedMlp
import proofs.«102384_j11295763988598_1_alg».proof.Proof.RefAtIndex
import proofs.«102384_j11295763988598_1_alg».proof.Proof.Operands
import proofs.«102384_j11295763988598_1_alg».proof.Proof.Blocks

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the masked perceptron of those arguments. -/
theorem algebraic : Cert.algebraic_KernelIdeal_ReferenceIdeal := by
  intro m ρ m' ρ' _ hagree
  refine ⟨fun c => Cert.MaskedMlp.maskedMlp (Cert.KernelIdeal.Operands.argX m c) (Cert.KernelIdeal.Operands.argW1 m c)
      (Cert.KernelIdeal.Operands.argB1 m c) (Cert.KernelIdeal.Operands.argW2 m c) (Cert.KernelIdeal.Operands.argB2 m c)
      (Cert.KernelIdeal.Operands.argMask m c), Cert.KernelIdeal.Blocks.run m ρ, ?_⟩
  refine (θ_run Cert.ReferenceIdeal.defs _ _).mono (fun _ h c => ⟨(h c).1.trans
      (((Cert.ReferenceIdeal.Read.val_main_v12_eq (F := Ideal) _ _ _ _ _ _).trans
        (Cert.ReferenceIdeal.AtIndex.reference_eq _ _ _ _ _ _)).trans ?_), (h c).2⟩)
    (Cert.ReferenceIdeal.Value.run (F := Ideal) m' ρ')
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
